-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S_ : Shape := ⟨0, ![]⟩

class Facts : Prop where
  bcast_S_S8x2048x256 : S_.BroadcastsInDim S8x2048x256 (![] : Fin 0 → Fin S8x2048x256.rank)
  reducesTo_S8x2048x256_S_d0_1_2 : S8x2048x256.ReducesTo [0, 1, 2] S_
  h_S_ : 0 < S_.numel
  bcast_S_S8x2048x2048 : S_.BroadcastsInDim S8x2048x2048 (![] : Fin 0 → Fin S8x2048x2048.rank)
  reducesTo_S8x2048x2048_S_d0_1_2 : S8x2048x2048.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  main_v18

def fn {F : FTy → Type} [FloatOps F] (main_arg0 : FVec F S8x2048x256 .f32) (main_arg1 : FVec F S8x2048x2048 .f32) (main_arg2 : FVec F S256x256 .f32) (main_arg3 : FVec F S256 .f32) : IVec S_ 1 :=
  let main_v0 : FVec F S8x2048x256 .f32 := Host.absf main_arg0
  let main_cst : FVec F S_ .f32 := constant S_ .f32 0x7F800000#32
  let main_v1 : FVec F S8x2048x256 .f32 := broadcastInDim S8x2048x256 ![] bcast_S_S8x2048x256 main_cst
  let main_v2 : IVec S8x2048x256 1 := cmpf .olt main_v0 main_v1
  let main_c : IVec S_ 1 := constantI S_ 1 1#1
  let main_v3 : IVec S_ 1 := (fun x v => Host.reduce IntOp.andi x v reducesTo_S8x2048x256_S_d0_1_2 h_S_) main_v2 main_c
  let main_v4 : FVec F S8x2048x2048 .f32 := Host.absf main_arg1
  let main_cst_0 : FVec F S_ .f32 := constant S_ .f32 0x7F800000#32
  let main_v5 : FVec F S8x2048x2048 .f32 := broadcastInDim S8x2048x2048 ![] bcast_S_S8x2048x2048 main_cst_0
  let main_v6 : IVec S8x2048x2048 1 := cmpf .olt main_v4 main_v5
  let main_c_1 : IVec S_ 1 := constantI S_ 1 1#1
  let main_v7 : IVec S_ 1 := (fun x v => Host.reduce IntOp.andi x v reducesTo_S8x2048x2048_S_d0_1_2 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_v13 main_v16
-- ==== Kernel.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S1x256 : Shape := ⟨2, ![1, 256]⟩
abbrev S1x2048x256 : Shape := ⟨3, ![1, 2048, 256]⟩
abbrev S1x512x2048 : Shape := ⟨3, ![1, 512, 2048]⟩
abbrev S1x512x256 : Shape := ⟨3, ![1, 512, 256]⟩
abbrev S2048x256 : Shape := ⟨2, ![2048, 256]⟩
abbrev S512x2048 : Shape := ⟨2, ![512, 2048]⟩
abbrev S512x256 : Shape := ⟨2, ![512, 256]⟩

abbrev nBuf : Space → Nat
  | .hbm => 6
  | .vmem => 8
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256, .f32⟩
  | .hbm, ⟨4, _⟩ => ⟨S1x256, .f32⟩
  | .hbm, ⟨5, _⟩ => ⟨S8x2048x256, .f32⟩
  | .local _ .vmem, ⟨0, _⟩ => ⟨S1x2048x256, .f32⟩
  | .local _ .vmem, ⟨1, _⟩ => ⟨S1x2048x256, .f32⟩
  | .local _ .vmem, ⟨2, _⟩ => ⟨S1x512x2048, .f32⟩
  | .local _ .vmem, ⟨3, _⟩ => ⟨S1x512x2048, .f32⟩
  | .local _ .vmem, ⟨4, _⟩ => ⟨S256x256, .f32⟩
  | .local _ .vmem, ⟨5, _⟩ => ⟨S1x256, .f32⟩
  | .local _ .vmem, ⟨6, _⟩ => ⟨S1x512x256, .f32⟩
  | .local _ .vmem, ⟨7, _⟩ => ⟨S1x512x256, .f32⟩
  | _, _ => ⟨S8x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S256_S1x256 : S256.ShapeCasts S1x256
  inb_S256x256_S256x256_0_0 : ∀ a, (![0, 0] : Fin 2 → Nat) a + S256x256.size a ≤ S256x256.size a
  h_S256x256 : 0 < S256x256.numel
  natLt_1_32 : 1 < 32
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  inb_S1x512x2048_S1x512x2048_0_0_0 : ∀ a, (![0, 0, 0] : Fin 3 → Nat) a + S1x512x2048.size a ≤ S1x512x2048.size a
  h_S1x512x2048 : 0 < S1x512x2048.numel
  shapeCasts_S1x512x2048_S512x2048 : S1x512x2048.ShapeCasts S512x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  shapeCasts_S512x256_S1x512x256 : S512x256.ShapeCasts S1x512x256
  dot_S2048x256_S256x256_S2048x256_1_0_0_1_n_n_wf : DotDims.WF S2048x256 S256x256 S2048x256 [1] [0] [0] [1] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x256.size a ≤ S8x2048x256.size a
  hwx0_0 : ∀ i : grid0.Coords, EltTy.bits .f32 = 32 ∨ (Rect.block (s := S8x2048x256) S1x2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x2048.size a ≤ S8x2048x2048.size a
  hwx0_1 : ∀ i : grid0.Coords, EltTy.bits .f32 = 32 ∨ (Rect.block (s := S8x2048x2048) S1x512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x256.size a ≤ S8x2048x256.size a
  hwx0_4 : ∀ i : grid0.Coords, EltTy.bits .f32 = 32 ∨ (Rect.block (s := S8x2048x256) S1x512x256.size (cc0_transform_4 i) (hinb0_4 i)).WholeWords (EltTy.packing .f32)

variable [Facts₀]

def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S1x2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8x2048x256 : Shape := ⟨3, ![8, 2048, 256]⟩
abbrev S8x2048x2048 : Shape := ⟨3, ![8, 2048, 2048]⟩
abbrev S256x256 : Shape := ⟨2, ![256, 256]⟩
abbrev S256 : Shape := ⟨1, ![256]⟩
abbrev S_ : Shape := ⟨0, ![]⟩
abbrev S1x1x256 : Shape := ⟨3, ![1, 1, 256]⟩

abbrev nBuf : Space → Nat
  | .hbm => 24
  | .vmem => 0
  | .smem => 0
  | _ => 0

abbrev bufTy : (tb : Table) → Fin (tcTables nBuf tb) → BufTy
  | .hbm, ⟨0, _⟩ => ⟨S8x2048x256, .f32⟩
  | .hbm, ⟨1, _⟩ => ⟨S8x2048x2048, .f32⟩
  | .hbm, ⟨2, _⟩ => ⟨S256x256, .f32⟩
  | .hbm, ⟨3, _⟩ => ⟨S256, .f32⟩
  | .hbm, ⟨4, _⟩ => ⟨S_, .f32⟩
  | .hbm, ⟨5, _⟩ => ⟨S256x256, .f32⟩
  | .hbm, ⟨6, _⟩ => ⟨S256x256, .i1⟩
  | .hbm, ⟨7, _⟩ => ⟨S256x256, .f32⟩
  | .hbm, ⟨8, _⟩ => ⟨S_, .f32⟩
  | .hbm, ⟨9, _⟩ => ⟨S256x256, .f32⟩
  | .hbm, ⟨10, _⟩ => ⟨S256x256, .i1⟩
  | .hbm, ⟨11, _⟩ => ⟨S256x256, .f32⟩
  | .hbm, ⟨12, _⟩ => ⟨S256x256, .f32⟩
  | .hbm, ⟨13, _⟩ => ⟨S_, .f32⟩
  | .hbm, ⟨14, _⟩ => ⟨S256x256, .f32⟩
  | .hbm, ⟨15, _⟩ => ⟨S256x256, .f32⟩
  | .hbm, ⟨16, _⟩ => ⟨S8x2048x256, .f32⟩
  | .hbm, ⟨17, _⟩ => ⟨S8x2048x256, .f32⟩
  | .hbm, ⟨18, _⟩ => ⟨S1x1x256, .f32⟩
  | .hbm, ⟨19, _⟩ => ⟨S8x2048x256, .f32⟩
  | .hbm, ⟨20, _⟩ => ⟨S8x2048x256, .f32⟩
  | .hbm, ⟨21, _⟩ => ⟨S_, .f32⟩
  | .hbm, ⟨22, _⟩ => ⟨S8x2048x256, .f32⟩
  | .hbm, ⟨23, _⟩ => ⟨S8x2048x256, .f32⟩
  | _, _ => ⟨S8x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_call0_cst : Ref sig .tc := ⟨.hbm, 21, rfl⟩
abbrev main_call0_v0 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S_S256x256 : S_.BroadcastsInDim S256x256 (![] : Fin 0 → Fin S256x256.rank)
  bcast_S256_S1x1x256_2 : S256.BroadcastsInDim S1x1x256 (![2] : Fin 1 → Fin S1x1x256.rank)
  bcast_S1x1x256_S8x2048x256_0_1_2 : S1x1x256.BroadcastsInDim S8x2048x256 (![0, 1, 2] : Fin 3 → Fin S8x2048x256.rank)
  bcast_S_S8x2048x256 : S_.BroadcastsInDim S8x2048x256 (![] : Fin 0 → Fin S8x2048x256.rank)
  dot_S8x2048x256_S256x256_S8x2048x256_2_0_01_1_n_n_wf : DotDims.WF S8x2048x256 S256x256 S8x2048x256 [2] [0] [0, 1] [1] [] []
  dot_S8x2048x2048_S8x2048x256_S8x2048x256_2_1_1_2_0_0_wf : DotDims.WF S8x2048x2048 S8x2048x256 S8x2048x256 [2] [1] [1] [2] [0] [0]

variable [Facts₀]

def dot_S8x2048x256_S256x256_S8x2048x256_2_0_01_1_n_n : DotDims S8x2048x256 S256x256 S8x2048x256 where
  lhsContracting := [2]
  rhsContracting := [0]
  lhsNonContracting := [0, 1]
  rhsNonContracting := [1]
  lhsBatch := []
  rhsBatch := []
  wf := dot_S8x2048x256_S256x256_S8x2048x256_2_0_01_1_n_n_wf
def dot_S8x2048x2048_S8x2048x256_S8x2048x256_2_1_1_2_0_0 : DotDims S8x2048x2048 S8x2048x256 S8x2048x256 where
  lhsContracting := [2]
  rhsContracting := [1]
  lhsNonContracting := [1]
  rhsNonContracting := [2]
  lhsBatch := [0]
  rhsBatch := [0]
  wf := dot_S8x2048x2048_S8x2048x256_S8x2048x256_2_1_1_2_0_0_wf

class Facts : Prop extends Facts₀ where

variable [Facts]
-- ==== Proof.Layer.lean ====
/-
  A graph-convolution layer with ternary weights, as ONE function of its four argument arrays, index by index, on the
  extended reals.

  The weight matrix `w` (256 × 256) is first made ternary: an entry above the threshold `s` becomes `s`, one below
  `-s` becomes `-s`, anything between becomes `0`; written as `(⟦w > s⟧ − ⟦w < −s⟧) · s` with the two indicator bits
  read as the numbers 0 and 1. The threshold is the single-precision word nearest to 0.01, and it is never evaluated:
  both programs carry the same word.

  For a batch `b`, a node `n` and an output feature `o` the layer's value is

      max ( (∑ q, adj[b, n, q] · (∑ i, x[b, q, i] · tern w [i, o])) + bias[o] ,  0 ),

  the node's neighbourhood sum of the projected features, shifted by the bias and clipped below at zero. The inner
  sum (the projection of node `q`'s features) sits INSIDE the outer one on both sides of the certificate, so no
  distributive law is needed and no finiteness hypothesis either.
-/
import Idealize.ShloMosaic.PureOps.Ideal.Laws
import Idealize.ShloMosaic.Lib.ValueIdx

noncomputable section

namespace Cert.Gcn

open Idealize.ShloMosaic Idealize.ShloMosaic.ValueIdx

/-- The node features, `[batch, node, feature]`. -/
abbrev SX : Shape := ⟨3, ![8, 2048, 256]⟩
/-- The adjacency weights, `[batch, node, neighbour]`. -/
abbrev SA : Shape := ⟨3, ![8, 2048, 2048]⟩
/-- The weight matrix, `[feature in, feature out]`. -/
abbrev SW : Shape := ⟨2, ![256, 256]⟩
/-- The bias, one entry per output feature. -/
abbrev SB : Shape := ⟨1, ![256]⟩

/-- The ternary weight matrix: `(⟦w > s⟧ − ⟦w < −s⟧) · s`, entry by entry, the indicator bits read unsigned. -/
def tern (w : FVec Ideal SW .f32) : FVec Ideal SW .f32 :=
  mulf
    (subf (uitofp .f32 (cmpf .ogt w (broadcast SW (Scalar.ofBits .f32 0x3C23D70A#32))))
      (uitofp .f32 (cmpf .olt w (broadcast SW (Scalar.ofBits .f32 0xBC23D70A#32)))))
    (broadcast SW (Scalar.ofBits .f32 0x3C23D70A#32))

/-- Node `q`'s features of batch `b` projected on output feature `o`: `∑ i, x[b, q, i] · tern w [i, o]`. -/
def proj (x : FVec Ideal SX .f32) (w : FVec Ideal SW .f32) (b : Fin 8) (q : Fin 2048) (o : Fin 256) : EReal :=
  ∑ i : Fin 256, x (ix3 b q i) * tern w (ix2 i o)

/-- The layer: the neighbourhood sum of the projected features, plus the bias, clipped below at zero. -/
def layer (x : FVec Ideal SX .f32) (adj : FVec Ideal SA .f32) (w : FVec Ideal SW .f32) (bias : FVec Ideal SB .f32) :
    FVec Ideal SX .f32 :=
  fun j => max ((∑ q : Fin 2048, adj (ix3 (j 0) (j 1) q) * proj x w (j 0) q (j 2)) + bias (ix1 (j 2)))
    (Scalar.ofBits (F := Ideal) .f32 0x00000000#32)

end Cert.Gcn

end
-- ==== Proof.ReferenceLayer.lean ====
/-
  The reference program computes the layer: its last stage, read index by index, is `Cert.Gcn.layer` of the four
  arguments.

  The reference makes the weights ternary with the same two comparisons and the same threshold word as the
  specification (`weights_eq`, by unfolding), contracts the features with them (one sum over the 256 input features:
  `support_eq`), contracts the adjacency row with the result inside each batch (one sum over the 2048 neighbours), adds
  the bias broadcast along the feature axis and takes the maximum with zero. Each of those stages is read at an index
  by the generated lemma for it; what is left is to see that the operand indices those lemmas compute are the ones the
  specification names by coordinates.
-/
import proofs.«150810_j5540507811925_1_alg».proof.Proof.Gen.ReferenceIdeal.Read
import proofs.«150810_j5540507811925_1_alg».proof.Proof.Layer

noncomputable section

namespace Cert.Gcn.Reference

open Cert.ReferenceIdeal Cert.ReferenceIdeal.Read Idealize.ShloMosaic Idealize.ShloMosaic.ValueIdx Cert.Gcn

/-- The reference's ternary weights are the specification's: the same comparisons against the same words, the
    indicator bits read unsigned, the threshold broadcast from a scalar constant. -/
theorem weights_eq (w : (⟨S256x256, .f32⟩ : BufTy).Contents (Elt Ideal)) : val_main_v8 (F := Ideal) w = tern w := by
  funext i
  rfl

/-- The feature contraction reads the features of node `(b, q)` at input feature `i`. -/
theorem support_lhs (b : Fin 8) (q : Fin 2048) (o i : Fin 256) : lidx_main_v9 (ix3 b q o) i = ix3 b q i :=
  funext fun a => by match a with | ⟨0, _⟩ => rfl | ⟨1, _⟩ => rfl | ⟨2, _⟩ => rfl

/-- … and the weight at `(i, o)`. -/
theorem support_rhs (b : Fin 8) (q : Fin 2048) (o i : Fin 256) : ridx_main_v9 (ix3 b q o) i = ix2 i o :=
  funext fun a => by match a with | ⟨0, _⟩ => rfl | ⟨1, _⟩ => rfl

/-- The reference's projected features at `(b, q, o)`: the specification's `proj`. -/
theorem support_eq (x : (⟨S8x2048x256, .f32⟩ : BufTy).Contents (Elt Ideal)) (w : (⟨S256x256, .f32⟩ : BufTy).Contents (Elt Ideal))
    (b : Fin 8) (q : Fin 2048) (o : Fin 256) :
    val_main_v9 (F := Ideal) x w (ix3 b q o) = proj x w b q o := by
  rw [val_main_v9_apply, weights_eq]
  unfold proj
  refine Finset.sum_congr rfl fun i _ => ?_
  rw [support_lhs, support_rhs]

/-- The neighbourhood contraction at `(b, n, o)` reads the adjacency row of node `(b, n)` at neighbour `q`. -/
theorem agg_lhs (b : Fin 8) (n : Fin 2048) (o : Fin 256) (q : Fin 2048) : lidx_main_v10 (ix3 b n o) q = ix3 b n q :=
  funext fun a => by match a with | ⟨0, _⟩ => rfl | ⟨1, _⟩ => rfl | ⟨2, _⟩ => rfl

/-- … and the projected features of neighbour `q` in the same batch at the same output feature. -/
theorem agg_rhs (b : Fin 8) (n : Fin 2048) (o : Fin 256) (q : Fin 2048) : ridx_main_v10 (ix3 b n o) q = ix3 b q o :=
  funext fun a => by match a with | ⟨0, _⟩ => rfl | ⟨1, _⟩ => rfl | ⟨2, _⟩ => rfl

/-- The bias, broadcast in two steps to the result's shape, is read at the output feature. -/
theorem bias_idx (b : Fin 8) (n : Fin 2048) (o : Fin 256) : idx_main_v11 (idx_main_v12 (ix3 b n o)) = ix1 o :=
  funext fun a => by match a with | ⟨0, _⟩ => rfl

/-- THE REFERENCE'S RESULT is the layer of its arguments. -/
theorem result_eq (x : (⟨S8x2048x256, .f32⟩ : BufTy).Contents (Elt Ideal)) (adj : (⟨S8x2048x2048, .f32⟩ : BufTy).Contents (Elt Ideal))
    (w : (⟨S256x256, .f32⟩ : BufTy).Contents (Elt Ideal)) (bias : (⟨S256, .f32⟩ : BufTy).Contents (Elt Ideal)) :
    val_main_v14 (F := Ideal) x adj w bias = layer x adj w bias := by
  funext j
  obtain ⟨b, n, o, rfl⟩ : ∃ (b : Fin 8) (n : Fin 2048) (o : Fin 256), j = ix3 b n o := ⟨j 0, j 1, j 2, eq_ix3 j⟩
  rw [val_main_v14_apply, val_main_v13_apply, val_main_v10_apply, val_main_v12_apply, val_main_v11_apply,
    val_main_call0_v0_apply, bias_idx]
  have hsum : (∑ q : Fin 2048, adj (lidx_main_v10 (ix3 b n o) q) * val_main_v9 (F := Ideal) x w (ridx_main_v10 (ix3 b n o) q))
      = ∑ q : Fin 2048, adj (ix3 b n q) * proj x w b q o :=
    Finset.sum_congr rfl fun q _ => by rw [agg_lhs, agg_rhs, support_eq]
  rw [hsum]
  rfl

end Cert.Gcn.Reference

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.KernelBlock.lean ====
/-
  What the kernel body stores at one grid point, read at an index of the output block, as a formula in the four
  blocks it loads.

  The body loads the whole weight matrix `w`, one batch's features `xb` (a `1 × 2048 × 256` block), a band of 512
  adjacency rows of that batch `ab` (`1 × 512 × 2048`) and the bias as one row `bb` (`1 × 256`). It makes the weights
  ternary, multiplies the features by them (a product into a zero accumulator: entry `(q, o)` is the sum over the 256
  input features), multiplies the adjacency band by that product (entry `(p, o)` is the sum over the 2048
  neighbours), adds the bias row to every row and clips below at zero. The changes of number format between the steps
  are the identity on extended reals, and a comparison bit widened to a word and converted signed is the bit
  converted unsigned, so the ternary weights are the specification's `tern w`.
-/
import proofs.«150810_j5540507811925_1_alg».proof.Proof.Gen.KernelIdeal.Skeleton
import proofs.«150810_j5540507811925_1_alg».proof.Proof.LibPlainDot
import proofs.«150810_j5540507811925_1_alg».proof.Proof.Layer
import Idealize.ShloMosaic.Lib.KernelVsHost
import Idealize.ShloMosaic.Lib.ValueLayout
import Idealize.ShloMosaic.Lib.Pipeline.Value

noncomputable section

namespace Cert.Gcn.Kernel

open Cert.KernelIdeal Cert.KernelIdeal.Gen Idealize.ShloMosaic Idealize.ShloMosaic.ValueIdx Cert.Gcn

/-- The body's ternary weights are the specification's: the two comparison bits, widened to words and converted
    signed, are the bits converted unsigned, and the narrowing of the result changes nothing. -/
theorem weights_eq (w : FVec Ideal S256x256 .f32) (h : 1 < 32) (hb : FTy.bits .bf16 < FTy.bits .f32) :
    truncf (F := Ideal) .bf16 (mulf (subf (sitofp .f32 (extui 32 (cmpf .ogt w (broadcast S256x256 (Scalar.ofBits .f32 0x3C23D70A#32))) h))
        (sitofp .f32 (extui 32 (cmpf .olt w (broadcast S256x256 (Scalar.ofBits .f32 0xBC23D70A#32))) h)))
      (broadcast S256x256 (Scalar.ofBits .f32 0x3C23D70A#32))) hb = tern w := by
  rw [sitofp_extui_eq_uitofp, sitofp_extui_eq_uitofp]
  rfl

/-- The features-by-weights product at `(q, o)`: the sum over the input features. -/
theorem support_apply (l : FVec Ideal S2048x256 .bf16) (r : FVec Ideal S256x256 .bf16) (q : Fin 2048) (o : Fin 256) :
    matmul dot_S2048x256_S256x256_S2048x256_1_0_0_1_n_n none l r (constant S2048x256 .f32 0x00000000#32) (ix2 q o)
      = ∑ i : Fin 256, l (ix2 q i) * r (ix2 i o) :=
  PlainDot.matmul_zero_apply 2048 256 256 none l r (ix2 q o)

/-- The adjacency-by-support product at `(p, o)`: the sum over the neighbours. -/
theorem agg_apply (l : FVec Ideal S512x2048 .bf16) (r : FVec Ideal S2048x256 .bf16) (p : Fin 512) (o : Fin 256) :
    matmul dot_S512x2048_S2048x256_S512x256_1_0_0_1_n_n none l r (constant S512x256 .f32 0x00000000#32) (ix2 p o)
      = ∑ q : Fin 2048, l (ix2 p q) * r (ix2 q o) :=
  PlainDot.matmul_zero_apply 512 2048 256 none l r (ix2 p o)

/-- THE STORED BLOCK at `(u, p, o)`: the band's row `p` against the projected features, plus the bias at `o`, clipped
    below at zero. -/
theorem payload_apply (w : Vec Ideal S256x256 .f32) (xb : Vec Ideal S1x2048x256 .f32) (ab : Vec Ideal S1x512x2048 .f32)
    (bb : Vec Ideal S1x256 .f32) (u : Fin 1) (p : Fin 512) (o : Fin 256) :
    k0_pay1 (F := Ideal) w xb ab bb (ix3 u p o)
      = max ((∑ q : Fin 2048, ab (ix3 (0 : Fin 1) p q) * ∑ i : Fin 256, xb (ix3 (0 : Fin 1) q i) * tern w (ix2 i o))
            + bb (ix2 (0 : Fin 1) o))
          (Scalar.ofBits (F := Ideal) .f32 0x00000000#32) := by
  unfold k0_pay1
  refine (shapeCast_ab_1ab_apply _ _ u p o).trans ?_
  rw [maximumf_apply, addf_apply, agg_apply, broadcastTo_1b_ab_apply, shapeCast_self]
  refine congrArg₂ max (congrArg₂ (· + ·) (Finset.sum_congr rfl fun q _ => ?_) rfl) rfl
  rw [truncf_apply, truncf_apply, shapeCast_1ab_ab_apply, support_apply]
  refine congrArg _ (Finset.sum_congr rfl fun i _ => ?_)
  rw [truncf_apply, shapeCast_1ab_ab_apply, weights_eq]

/-- The stored block is the layer, restricted to the block: if the loaded weight block is the weight matrix, the
    feature block is batch `b` of the features, row `p` of the adjacency band is row `n` of batch `b`'s adjacency
    matrix and the bias row holds the bias, then the body's value at `(u, p, o)` is the layer's at `(b, n, o)`. -/
theorem block_eq (X : FVec Ideal SX .f32) (A : FVec Ideal SA .f32) (W : FVec Ideal SW .f32) (B : FVec Ideal SB .f32)
    (wb : Vec Ideal S256x256 .f32) (xb : Vec Ideal S1x2048x256 .f32) (ab : Vec Ideal S1x512x2048 .f32)
    (bb : Vec Ideal S1x256 .f32) (b : Fin 8) (n : Fin 2048) (u : Fin 1) (p : Fin 512) (o : Fin 256)
    (hw : wb = W) (hx : ∀ (q : Fin 2048) (i : Fin 256), xb (ix3 (0 : Fin 1) q i) = X (ix3 b q i))
    (ha : ∀ q : Fin 2048, ab (ix3 (0 : Fin 1) p q) = A (ix3 b n q)) (hb : bb (ix2 (0 : Fin 1) o) = B (ix1 o)) :
    k0_pay1 (F := Ideal) wb xb ab bb (ix3 u p o) = layer X A W B (ix3 b n o) := by
  rw [payload_apply, hw, hb]
  unfold layer proj
  simp only [ha, hx]

end Cert.Gcn.Kernel

end
-- ==== Proof.KernelArray.lean ====
/-
  From the kernel's blocks to its result array.

  The grid has 8 × 4 points. Point `(b, s)` is handed batch `b`'s features whole, rows `512 s … 512 s + 511` of batch
  `b`'s adjacency matrix, the weight matrix whole and the bias as one row, and writes back rows `512 s … 512 s + 511` of
  batch `b` of the result. So what it writes back is the layer's value on exactly those rows (`flushed_eq`), the 32
  blocks tile the result array (`cover`), and the array ends holding the layer of the arguments (`final`, `run`).
-/
import proofs.«150810_j5540507811925_1_alg».proof.Proof.Gen.KernelIdeal.Value
import proofs.«150810_j5540507811925_1_alg».proof.Proof.KernelBlock
import Idealize.ShloMosaic.Lib.Pipeline.Value
import Idealize.ShloMosaic.Lib.StableHlo.Run
import Idealize.ShloMosaic.Lib.Tactic

noncomputable section

namespace Cert.Gcn.Array

open Cert.KernelIdeal Cert.KernelIdeal.Gen Cert.KernelIdeal.Value Idealize.ShloMosaic Idealize.ShloMosaic.TcCoe
  Idealize.SL.Sem Idealize.ShloMosaic.ValueIdx Cert.Gcn
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps, decided over the 32 grid points: the feature window follows the output's batch and sits
    at the origin otherwise; the adjacency window follows the output's batch and row band; the weight and bias
    windows never move; the output's batch is below 8, its band below 4, its feature block the only one. -/
theorem idx_facts : ∀ t : Fin cfg0.N,
    win0_0.index t (0 : Fin 3) = win0_4.index t (0 : Fin 3) ∧ win0_0.index t (1 : Fin 3) = 0 ∧ win0_0.index t (2 : Fin 3) = 0
    ∧ win0_1.index t (0 : Fin 3) = win0_4.index t (0 : Fin 3) ∧ win0_1.index t (1 : Fin 3) = win0_4.index t (1 : Fin 3)
    ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 7 ∧ win0_4.index t (1 : Fin 3) ≤ 3 ∧ win0_4.index t (2 : Fin 3) = 0 :=
  (by decide +kernel : ∀ t : Fin grid0.N, _)

/-- Every (batch, band) pair is some point's output block. -/
theorem idx_onto : ∀ (q0 : Fin 8) (q1 : Fin 4), ∃ t : Fin cfg0.N, win0_4.index t = ![q0.val, q1.val, 0] :=
  (by decide +kernel : ∀ (q0 : Fin 8) (q1 : Fin 4), ∃ t : Fin grid0.N, win0_4.index t = ![q0.val, q1.val, 0])

/-- The bias window's array is the bias recast as one row: the one host operation before the region. -/
theorem bias_row (c : Dev nD) :
    (V m c main_v0 : S1x256.Idx → EReal) = shapeCast S1x256 (m ((c : Thread nD τ).loc main_arg3)) shapeCasts_S256_S1x256 := by
  dsimp only [Gen.V, Gen.hostOps0]
  after_results
  rfl

/-- The batch a grid point works on. -/
def batchOf (t : Fin cfg0.N) : Fin 8 := ⟨win0_4.index t (0 : Fin 3), by have := idx_facts t; omega⟩

/-- The result row (equally: the adjacency row) that row `p` of a grid point's band is. -/
def rowOf (t : Fin cfg0.N) (p : Fin 512) : Fin 2048 :=
  ⟨win0_4.index t (1 : Fin 3) * 512 + p.val, by have := idx_facts t; have := p.isLt; omega⟩

/-- The weight window's block is the weight matrix, at every point. -/
theorem wblk_eq (c : Dev nD) (t : Fin cfg0.N) :
    (iblk m c 2 t : Vec Ideal S256x256 .f32) = (V m c main_arg2 : S256x256.Idx → EReal) := by
  obtain ⟨-, -, -, -, -, -, e20, e21, -⟩ := idx_facts t
  funext x
  unfold iblk
  rw [View.read_apply]
  show V m c main_arg2 _ = V m c main_arg2 _
  congr 1
  funext a
  apply Fin.ext
  match a with
  | ⟨0, _⟩ => show win0_2.index t (0 : Fin 2) * 256 + 1 * (x 0).val = (x 0).val; omega
  | ⟨1, _⟩ => show win0_2.index t (1 : Fin 2) * 256 + 1 * (x 1).val = (x 1).val; omega

/-- The feature window's block is the point's batch of the features. -/
theorem xblk_apply (c : Dev nD) (t : Fin cfg0.N) (q : Fin 2048) (i : Fin 256) :
    (iblk m c 0 t : Vec Ideal S1x2048x256 .f32) (ix3 (0 : Fin 1) q i)
      = (V m c main_arg0 : S8x2048x256.Idx → EReal) (ix3 (batchOf t) q i) := by
  obtain ⟨e00, e01, e02, -⟩ := idx_facts t
  unfold iblk
  rw [View.read_apply]
  show V m c main_arg0 _ = V m c main_arg0 _
  congr 1
  funext a
  apply Fin.ext
  match a with
  | ⟨0, _⟩ => show win0_0.index t (0 : Fin 3) * 1 + 1 * 0 = win0_4.index t (0 : Fin 3); omega
  | ⟨1, _⟩ => show win0_0.index t (1 : Fin 3) * 2048 + 1 * q.val = q.val; omega
  | ⟨2, _⟩ => show win0_0.index t (2 : Fin 3) * 256 + 1 * i.val = i.val; omega

/-- The adjacency window's block is the point's band of rows of its batch's adjacency matrix. -/
theorem ablk_apply (c : Dev nD) (t : Fin cfg0.N) (p : Fin 512) (q : Fin 2048) :
    (iblk m c 1 t : Vec Ideal S1x512x2048 .f32) (ix3 (0 : Fin 1) p q)
      = (V m c main_arg1 : S8x2048x2048.Idx → EReal) (ix3 (batchOf t) (rowOf t p) q) := by
  obtain ⟨-, -, -, e10, e11, e12, -⟩ := idx_facts t
  unfold iblk
  rw [View.read_apply]
  show V m c main_arg1 _ = V m c main_arg1 _
  congr 1
  funext a
  apply Fin.ext
  match a with
  | ⟨0, _⟩ => show win0_1.index t (0 : Fin 3) * 1 + 1 * 0 = win0_4.index t (0 : Fin 3); omega
  | ⟨1, _⟩ => show win0_1.index t (1 : Fin 3) * 512 + 1 * p.val = win0_4.index t (1 : Fin 3) * 512 + p.val; omega
  | ⟨2, _⟩ => show win0_1.index t (2 : Fin 3) * 2048 + 1 * q.val = q.val; omega

/-- The bias window's block, a single row, holds the bias. -/
theorem bblk_apply (c : Dev nD) (t : Fin cfg0.N) (o : Fin 256) :
    (iblk m c 3 t : Vec Ideal S1x256 .f32) (ix2 (0 : Fin 1) o) = (m ((c : Thread nD τ).loc main_arg3) : S256.Idx → EReal) (ix1 o) := by
  obtain ⟨-, -, -, -, -, -, -, -, e30, e31, -⟩ := idx_facts t
  unfold iblk
  rw [View.read_apply]
  have hemb : ((cfg0.win 3).blk t).view.emb (ix2 (0 : Fin 1) o) = (ix2 (0 : Fin 1) o : S1x256.Idx) := by
    funext a
    apply Fin.ext
    match a with
    | ⟨0, _⟩ => show win0_3.index t (0 : Fin 2) * 1 + 1 * 0 = 0; omega
    | ⟨1, _⟩ => show win0_3.index t (1 : Fin 2) * 256 + 1 * o.val = o.val; omega
  show (V m c main_v0 : S1x256.Idx → EReal) _ = _
  rw [hemb, bias_row]
  exact shapeCast_a_1a_apply _ _ (0 : Fin 1) o

/-- An index of a point's output block, placed in the result array. -/
theorem oblk_emb (t : Fin cfg0.N) (u : Fin 1) (p : Fin 512) (o : Fin 256) :
    ((cfg0.win 4).blk t).view.emb (ix3 u p o) = (ix3 (batchOf t) (rowOf t p) o : S8x2048x256.Idx) := by
  obtain ⟨-, -, -, -, -, -, -, -, -, -, -, -, e42⟩ := idx_facts t
  funext a
  apply Fin.ext
  match a with
  | ⟨0, _⟩ => show win0_4.index t (0 : Fin 3) * 1 + 1 * u.val = win0_4.index t (0 : Fin 3); have := u.isLt; omega
  | ⟨1, _⟩ => show win0_4.index t (1 : Fin 3) * 512 + 1 * p.val = win0_4.index t (1 : Fin 3) * 512 + p.val; omega
  | ⟨2, _⟩ => show win0_4.index t (2 : Fin 3) * 256 + 1 * o.val = o.val; omega

/-- WHAT POINT `t` WRITES BACK is block `t` of the layer of the argument arrays as the region finds them. -/
theorem flushed_eq (c : Dev nD) (t : Fin cfg0.N) :
    (dats m 0 c).flushed 4 t = ((cfg0.win 4).blk t).view.read (Elt Ideal)
      (layer (V m c main_arg0) (V m c main_arg1) (V m c main_arg2) (m ((c : Thread nD τ).loc main_arg3))) := by
  rw [Value.flushed4]
  unfold out0_4
  rw [View.canon_unit_zero hz3]
  simp only [View.ld_unit_zero (S := S256x256) hz2, View.ld_unit_zero (S := S1x2048x256) hz3,
    View.ld_unit_zero (S := S1x512x2048) hz3, View.ld_unit_zero (S := S1x256) hz2]
  funext y
  obtain ⟨u, p, o, rfl⟩ : ∃ (u : Fin 1) (p : Fin 512) (o : Fin 256), y = (ix3 u p o : S1x512x256.Idx) :=
    ⟨y 0, y 1, y 2, eq_ix3 (n0 := 1) (n1 := 512) (n2 := 256) y⟩
  show k0_pay1 (F := Ideal) (iblk m c 2 t) (iblk m c 0 t) (iblk m c 1 t) (iblk m c 3 t) (ix3 u p o)
    = layer (V m c main_arg0) (V m c main_arg1) (V m c main_arg2) (m ((c : Thread nD τ).loc main_arg3))
        (((cfg0.win 4).blk t).view.emb (ix3 u p o))
  rw [oblk_emb]
  exact Kernel.block_eq (V m c main_arg0) (V m c main_arg1) (V m c main_arg2) (m ((c : Thread nD τ).loc main_arg3))
    (iblk m c 2 t) (iblk m c 0 t) (iblk m c 1 t) (iblk m c 3 t) (batchOf t) (rowOf t p) u p o
    (wblk_eq m c t) (fun q i => xblk_apply m c t q i) (fun q => ablk_apply m c t p q) (bblk_apply m c t o)

/-- An index of the result array is in point `t`'s block iff each coordinate is in the block's range on its axis. -/
theorem mem_blk (t : Fin cfg0.N) (i : S8x2048x256.Idx) :
    i ∈ ((cfg0.win 4).blk t).view.set ↔ ∀ a : Fin 3, win0_4.index t a * S1x512x256.size a ≤ (i a).val
      ∧ (i a).val < win0_4.index t a * S1x512x256.size a + S1x512x256.size a := by
  show i ∈ ((View.whole main_v1).slice (win0_4.rect t)).set ↔ _
  rw [View.set_slice_whole, Rect.mem_set_unit]
  exact Iff.rfl

/-- The 32 blocks tile the result array: row `r` of batch `b` is in the block of the point with batch `b` and band
    `r / 512`. -/
theorem cover (i : S8x2048x256.Idx) :
    ∃ t : Fin cfg0.N, (cfg0.win 4).flush t = true ∧ i ∈ ((cfg0.win 4).blk t).view.set := by
  have hi0 : (i 0).val < 8 := (i 0).isLt
  have hi1 : (i 1).val < 2048 := (i 1).isLt
  have hi2 : (i 2).val < 256 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ =>
    show win0_4.index t (0 : Fin 3) * 1 ≤ (i 0).val ∧ (i 0).val < win0_4.index t (0 : Fin 3) * 1 + 1
    omega
  | ⟨1, _⟩ =>
    show win0_4.index t (1 : Fin 3) * 512 ≤ (i 1).val ∧ (i 1).val < win0_4.index t (1 : Fin 3) * 512 + 512
    omega
  | ⟨2, _⟩ =>
    show win0_4.index t (2 : Fin 3) * 256 ≤ (i 2).val ∧ (i 2).val < win0_4.index t (2 : Fin 3) * 256 + 256
    omega

/-- THE RESULT ARRAY after the run is the layer of the four arguments as launched. -/
theorem final (c : Dev nD) : (dats m 0 c).arrAt 4 cfg0.N
    = layer (m ((c : Thread nD τ).loc main_arg0)) (m ((c : Thread nD τ).loc main_arg1)) (m ((c : Thread nD τ).loc main_arg2))
        (m ((c : Thread nD τ).loc main_arg3)) :=
  ((dats m 0 c).arrAt_eq_of_cover 4 _ (fun t _ => flushed_eq m c t) cover).trans
    (by rw [V_main_arg0, V_main_arg1, V_main_arg2])

/-- The kernel's run, read: the result array at the layer of the arguments, the arguments unchanged. -/
theorem run : θ_run defs (onTc (τ := τ) (main (F := Ideal))) ⟨m, fun _ => 0, ρ⟩ fun r => ∀ c : Dev nD,
      r.2.mem ((c : Thread nD τ).loc main_v1)
        = layer (m ((c : Thread nD τ).loc main_arg0)) (m ((c : Thread nD τ).loc main_arg1)) (m ((c : Thread nD τ).loc main_arg2))
            (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.Gcn.Array

end
-- ==== Proof.lean ====
/-
  A graph-convolution layer with ternary weights: a Pallas kernel against its jnp reference, over the extended reals.

  Both programs compute, for batch `b`, node `n` and output feature `o`,

      max ( (∑ q, adj[b, n, q] · (∑ i, x[b, q, i] · tern w [i, o])) + bias[o] ,  0 ),

  where `tern w = (⟦w > s⟧ − ⟦w < −s⟧) · s` with `s` the single-precision word nearest 0.01 (Proof/Layer.lean). The
  reference does it with two contractions over whole arrays (Proof/ReferenceLayer.lean). The kernel walks an 8 × 4 grid;
  at a point it holds one batch's features, a band of 512 adjacency rows, the weights and the bias, recomputes the
  projected features and multiplies the band by them (Proof/KernelBlock.lean); the 32 output blocks tile the result
  (Proof/KernelArray.lean). The two sides nest their sums the same way, so they are equal term by term: no
  distributive law, and no use of the inputs' finiteness.

  The three frames are the generated ones (the reference's is its generated run with the result dropped). The
  idealization rewrote nothing, so `preserves` has nothing to state.
-/
import proofs.«150810_j5540507811925_1_alg».proof.Defs
import proofs.«150810_j5540507811925_1_alg».proof.Proof.Gen.Kernel
import proofs.«150810_j5540507811925_1_alg».proof.Proof.Gen.Kernel.Skeleton
import proofs.«150810_j5540507811925_1_alg».proof.Proof.Gen.Kernel.Launch
import proofs.«150810_j5540507811925_1_alg».proof.Proof.Gen.Kernel.Points
import proofs.«150810_j5540507811925_1_alg».proof.Proof.Gen.Kernel.Frame
import proofs.«150810_j5540507811925_1_alg».proof.Proof.Gen.KernelIdeal
import proofs.«150810_j5540507811925_1_alg».proof.Proof.Gen.KernelIdeal.Skeleton
import proofs.«150810_j5540507811925_1_alg».proof.Proof.Gen.KernelIdeal.Launch
import proofs.«150810_j5540507811925_1_alg».proof.Proof.Gen.KernelIdeal.Points
import proofs.«150810_j5540507811925_1_alg».proof.Proof.Gen.KernelIdeal.Frame
import proofs.«150810_j5540507811925_1_alg».proof.Proof.Gen.ReferenceIdeal
import proofs.«150810_j5540507811925_1_alg».proof.Proof.Gen.Pre_finite_inputs
import proofs.«150810_j5540507811925_1_alg».proof.Proof.Gen.KernelIdeal.Value
import proofs.«150810_j5540507811925_1_alg».proof.Proof.Gen.ReferenceIdeal.Run
import proofs.«150810_j5540507811925_1_alg».proof.Proof.Gen.ReferenceIdeal.Read
import proofs.«150810_j5540507811925_1_alg».proof.Proof.ReferenceLayer
import proofs.«150810_j5540507811925_1_alg».proof.Proof.KernelArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the four arguments, the kernel's result array ends at the layer of its arguments
    (the blocks tile it) and the reference's at its last stage, which is the layer of the same arguments. -/
theorem algebraic : Cert.algebraic_KernelIdeal_ReferenceIdeal := by
  intro m ρ m' ρ' _ hagree
  refine ⟨_, Cert.Gcn.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.Gcn.Reference.result_eq, (hagree c).1, (hagree c).2.1,
    (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
